-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_total" .f32 0x32AAAAAB#32 ((1 / 50331648 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x12288 : Shape := ⟨3, ![64, 64, 12288]⟩
abbrev S64x3x512x512 : Shape := ⟨4, ![64, 3, 512, 512]⟩
abbrev S_ : Shape := ⟨0, ![]⟩

class Facts : Prop where
  bcast_S_S64x64x12288 : S_.BroadcastsInDim S64x64x12288 (![] : Fin 0 → Fin S64x64x12288.rank)
  reducesTo_S64x64x12288_S_d0_1_2 : S64x64x12288.ReducesTo [0, 1, 2] S_
  h_S_ : 0 < S_.numel
  bcast_S_S64x3x512x512 : S_.BroadcastsInDim S64x3x512x512 (![] : Fin 0 → Fin S64x3x512x512.rank)
  reducesTo_S64x3x512x512_S_d0_1_2_3 : S64x3x512x512.ReducesTo [0, 1, 2, 3] S_

variable [Facts]

def fn {F : FTy → Type} [FloatOps F] (main_arg0 : FVec F S64x64x12288 .f32) (main_arg1 : FVec F S64x3x512x512 .f32) : IVec S_ 1 :=
  let main_v0 : FVec F S64x64x12288 .f32 := Host.absf main_arg0
  let main_cst : FVec F S_ .f32 := constant S_ .f32 0x7F800000#32
  let main_v1 : FVec F S64x64x12288 .f32 := broadcastInDim S64x64x12288 ![] bcast_S_S64x64x12288 main_cst
  let main_v2 : IVec S64x64x12288 1 := cmpf .olt main_v0 main_v1
  let main_c : IVec S_ 1 := constantI S_ 1 1#1
  let main_v3 : IVec S_ 1 := (fun x v => Host.reduce IntOp.andi x v reducesTo_S64x64x12288_S_d0_1_2 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x64x12288 : Shape := ⟨3, ![64, 64, 12288]⟩
abbrev S64x3x512x512 : Shape := ⟨4, ![64, 3, 512, 512]⟩
abbrev S64x64x3x64x64 : Shape := ⟨5, ![64, 64, 3, 64, 64]⟩
abbrev S1x1 : Shape := ⟨2, ![1, 1]⟩
abbrev S8x8x3x64x64 : Shape := ⟨5, ![8, 8, 3, 64, 64]⟩
abbrev S8x3x64x512 : Shape := ⟨4, ![8, 3, 64, 512]⟩
abbrev S8x1x3x64x64 : Shape := ⟨5, ![8, 1, 3, 64, 64]⟩
abbrev S8x3x64x64 : Shape := ⟨4, ![8, 3, 64, 64]⟩
abbrev S1536x64 : Shape := ⟨2, ![1536, 64]⟩
abbrev S64 : Shape := ⟨1, ![64]⟩
abbrev S1x64 : Shape := ⟨2, ![1, 64]⟩
abbrev S1 : Shape := ⟨1, ![1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S64x64x12288, .f32⟩
  | .hbm, ⟨1, _⟩ => ⟨S64x3x512x512, .f32⟩
  | .hbm, ⟨2, _⟩ => ⟨S64x64x3x64x64, .f32⟩
  | .hbm, ⟨3, _⟩ => ⟨S1x1, .f32⟩
  | .hbm, ⟨4, _⟩ => ⟨S_, .f32⟩
  | .local _ .vmem, ⟨0, _⟩ => ⟨S8x8x3x64x64, .f32⟩
  | .local _ .vmem, ⟨1, _⟩ => ⟨S8x8x3x64x64, .f32⟩
  | .local _ .vmem, ⟨2, _⟩ => ⟨S8x3x64x512, .f32⟩
  | .local _ .vmem, ⟨3, _⟩ => ⟨S8x3x64x512, .f32⟩
  | .local _ .vmem, ⟨4, _⟩ => ⟨S1x1, .f32⟩
  | .local _ .vmem, ⟨5, _⟩ => ⟨S1x1, .f32⟩
  | _, _ => ⟨S64x64x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c7_i32_1 : BitVec 32 := 7#32
  let v4 : BitVec 1 := Scalar.cmpi .eq arg1 c7_i32_1
  let v5 : BitVec 1 := Scalar.andi v3 v4
  let v105 : BitVec 32 := Scalar.extui v5
  let c0_i32_31 : BitVec 32 := 0#32
  let v106 : BitVec 1 := Scalar.cmpi .ne v105 c0_i32_31
  v106

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x8x3x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S64x64x12288_S64x64x3x64x64 : S64x64x12288.ShapeCasts S64x64x3x64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x8x3x64x64_S8x8x3x64x64_0_0_0_0_0 : ∀ a, (![0, 0, 0, 0, 0] : Fin 5 → Nat) a + S8x8x3x64x64.size a ≤ S8x8x3x64x64.size a
  h_S8x8x3x64x64 : 0 < S8x8x3x64x64.numel
  shapeCasts_S8x8x3x64x64_S8x8x3x64x64 : S8x8x3x64x64.ShapeCasts S8x8x3x64x64
  inb_S8x3x64x512_S8x3x64x512_0_0_0_0 : ∀ a, (![0, 0, 0, 0] : Fin 4 → Nat) a + S8x3x64x512.size a ≤ S8x3x64x512.size a
  h_S8x3x64x512 : 0 < S8x3x64x512.numel
  slices_S8x8x3x64x64_o0_0_0_0_0_S8x1x3x64x64 : S8x8x3x64x64.Slices ![0, 0, 0, 0, 0] S8x1x3x64x64
  shapeCasts_S8x1x3x64x64_S8x3x64x64 : S8x1x3x64x64.ShapeCasts S8x3x64x64
  slices_S8x3x64x512_o0_0_0_0_S8x3x64x64 : S8x3x64x512.Slices ![0, 0, 0, 0] S8x3x64x64
  shapeCasts_S8x3x64x64_S1536x64 : S8x3x64x64.ShapeCasts S1536x64
  reduces_S1536x64_S64 : S1536x64.Reduces [0] S64
  shapeCasts_S64_S1x64 : S64.ShapeCasts S1x64
  reduces_S1x64_S1 : S1x64.Reduces [1] S1
  shapeCasts_S1_S1x1 : S1.ShapeCasts S1x1
  slices_S8x8x3x64x64_o0_1_0_0_0_S8x1x3x64x64 : S8x8x3x64x64.Slices ![0, 1, 0, 0, 0] S8x1x3x64x64
  slices_S8x3x64x512_o0_0_0_64_S8x3x64x64 : S8x3x64x512.Slices ![0, 0, 0, 64] S8x3x64x64
  slices_S8x8x3x64x64_o0_2_0_0_0_S8x1x3x64x64 : S8x8x3x64x64.Slices ![0, 2, 0, 0, 0] S8x1x3x64x64
  slices_S8x3x64x512_o0_0_0_128_S8x3x64x64 : S8x3x64x512.Slices ![0, 0, 0, 128] S8x3x64x64
  slices_S8x8x3x64x64_o0_3_0_0_0_S8x1x3x64x64 : S8x8x3x64x64.Slices ![0, 3, 0, 0, 0] S8x1x3x64x64
  slices_S8x3x64x512_o0_0_0_192_S8x3x64x64 : S8x3x64x512.Slices ![0, 0, 0, 192] S8x3x64x64
  slices_S8x8x3x64x64_o0_4_0_0_0_S8x1x3x64x64 : S8x8x3x64x64.Slices ![0, 4, 0, 0, 0] S8x1x3x64x64
  slices_S8x3x64x512_o0_0_0_256_S8x3x64x64 : S8x3x64x512.Slices ![0, 0, 0, 256] S8x3x64x64
  slices_S8x8x3x64x64_o0_5_0_0_0_S8x1x3x64x64 : S8x8x3x64x64.Slices ![0, 5, 0, 0, 0] S8x1x3x64x64
  slices_S8x3x64x512_o0_0_0_320_S8x3x64x64 : S8x3x64x512.Slices ![0, 0, 0, 320] S8x3x64x64
  slices_S8x8x3x64x64_o0_6_0_0_0_S8x1x3x64x64 : S8x8x3x64x64.Slices ![0, 6, 0, 0, 0] S8x1x3x64x64
  slices_S8x3x64x512_o0_0_0_384_S8x3x64x64 : S8x3x64x512.Slices ![0, 0, 0, 384] S8x3x64x64
  slices_S8x8x3x64x64_o0_7_0_0_0_S8x1x3x64x64 : S8x8x3x64x64.Slices ![0, 7, 0, 0, 0] S8x1x3x64x64
  slices_S8x3x64x512_o0_0_0_448_S8x3x64x64 : S8x3x64x512.Slices ![0, 0, 0, 448] S8x3x64x64
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x3x64x64.size a ≤ S64x64x3x64x64.size a
  hwx0_0 : ∀ i : grid0.Coords, EltTy.bits .f32 = 32 ∨ (Rect.block (s := S64x64x3x64x64) S8x8x3x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x64x512.size a ≤ S64x3x512x512.size a
  hwx0_1 : ∀ i : grid0.Coords, EltTy.bits .f32 = 32 ∨ (Rect.block (s := S64x3x512x512) S8x3x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8x8x3x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x64x12288 : Shape := ⟨3, ![64, 64, 12288]⟩
abbrev S64x3x512x512 : Shape := ⟨4, ![64, 3, 512, 512]⟩
abbrev S64x3x8x64x8x64 : Shape := ⟨6, ![64, 3, 8, 64, 8, 64]⟩
abbrev S64x8x8x3x64x64 : Shape := ⟨6, ![64, 8, 8, 3, 64, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S64x64x12288, .f32⟩
  | .hbm, ⟨1, _⟩ => ⟨S64x3x512x512, .f32⟩
  | .hbm, ⟨2, _⟩ => ⟨S64x3x8x64x8x64, .f32⟩
  | .hbm, ⟨3, _⟩ => ⟨S64x8x8x3x64x64, .f32⟩
  | .hbm, ⟨4, _⟩ => ⟨S64x64x12288, .f32⟩
  | .hbm, ⟨5, _⟩ => ⟨S64x64x12288, .f32⟩
  | .hbm, ⟨6, _⟩ => ⟨S64x64x12288, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S64x64x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  shapeCasts_S64x3x512x512_S64x3x8x64x8x64 : S64x3x512x512.ShapeCasts S64x3x8x64x8x64
  transposes_S64x3x8x64x8x64_S64x8x8x3x64x64_0_2_4_1_3_5 : S64x3x8x64x8x64.Transposes [0, 2, 4, 1, 3, 5] S64x8x8x3x64x64
  shapeCasts_S64x8x8x3x64x64_S64x64x12288 : S64x8x8x3x64x64.ShapeCasts S64x64x12288
  reducesTo_S64x64x12288_S_d0_1_2 : S64x64x12288.ReducesTo [0, 1, 2] S_
  h_S_ : 0 < S_.numel

variable [Facts₀]

class Facts : Prop extends Facts₀ where

variable [Facts]
-- ==== Proof.Spec.lean ====
/-
  The mathematics both programs compute, stated once, with no program in sight.

  The input is an array `x` of 64 samples × 64 patches × 12288 numbers; read with each patch's 12288 numbers split as
  (channel, row, column) = 3 × 64 × 64 it is the rank-5 array `X5`. The target `T` is 64 images of 3 channels and
  512 × 512 pixels, cut into an 8 × 8 board of 64 × 64 patches: patch `q` sits on board row `q / 8` and board column
  `q % 8`, so element (channel, row, column) of patch `q` of sample `n` is the pixel
  `T[n, channel, 64 (q / 8) + row, 64 (q % 8) + column]` (`tgt`). The loss is the mean over all 50331648 = 64·64·12288
  elements of the squared difference `(X5 p − T (tgt p))²`: `total` is the sum, and the mean is its product with
  1/50331648.

  The sum is taken in 64 shares, one per pair (sample block `t / 8` of eight samples, board row `t % 8`): share `t`
  (`ptSum`) runs over the eight patches of that board row and, per patch, over 8 samples × 3 channels × 64 × 64 pixels.
  `accN n` is the sum of the shares 0 … n. Inside a share the numbers are read out of two blocks — eight samples by
  eight patches of `X5`, and eight samples' band of 64 pixel rows of `T` — at the block-relative indices `xsl`, `tsl`;
  `xemb`, `temb` place a block-relative index in the whole array.
-/
import Idealize.ShloMosaic.Lib.ValueIdx
import Idealize.ShloMosaic.PureOps.Ideal

noncomputable section

open scoped BigOperators

namespace Cert.PatchLoss

open Idealize.ShloMosaic Idealize.ShloMosaic.ValueIdx

/-- The input as given: sample, patch, flattened (channel, row, column). -/
abbrev SX : Shape := ⟨3, ![64, 64, 12288]⟩
/-- The target images: sample, channel, pixel row, pixel column. -/
abbrev ST : Shape := ⟨4, ![64, 3, 512, 512]⟩
/-- The input with a patch's numbers split: sample, patch, channel, row, column. -/
abbrev SP : Shape := ⟨5, ![64, 64, 3, 64, 64]⟩
/-- One patch of eight samples: sample, channel, row, column. -/
abbrev SB : Shape := ⟨4, ![8, 3, 64, 64]⟩
/-- A block of the split input: eight samples, eight patches (one board row). -/
abbrev SXB : Shape := ⟨5, ![8, 8, 3, 64, 64]⟩
/-- A block of the target: eight samples, three channels, a band of 64 pixel rows, all 512 columns. -/
abbrev STB : Shape := ⟨4, ![8, 3, 64, 512]⟩

/-- The pixel of the target that element `p` = (sample, patch, channel, row, column) is compared with. -/
def tgt (p : SP.Idx) : ST.Idx :=
  ix4 (⟨(p 0).val, (p 0).isLt⟩ : Fin 64) (⟨(p 2).val, (p 2).isLt⟩ : Fin 3)
    (⟨(p 1).val / 8 * 64 + (p 3).val, by
      have h1 : (p 1).val < 64 := (p 1).isLt
      have h3 : (p 3).val < 64 := (p 3).isLt
      omega⟩ : Fin 512)
    (⟨(p 1).val % 8 * 64 + (p 4).val, by
      have h4 : (p 4).val < 64 := (p 4).isLt
      omega⟩ : Fin 512)

/-- The squared difference at element `p`. -/
def sqd (X5 : SP.Idx → EReal) (T : ST.Idx → EReal) (p : SP.Idx) : EReal :=
  (X5 p - T (tgt p)) * (X5 p - T (tgt p))

/-- The sum of all squared differences. -/
def total (X5 : SP.Idx → EReal) (T : ST.Idx → EReal) : EReal := ∑ p : SP.Idx, sqd X5 T p

/-- Element `i` = (sample, channel, row, column) of patch `j` of share `t`, as an element of the whole split input:
    sample `8 (t / 8) + i₀`, patch `8 (t % 8) + j`. -/
def pidx (t : Fin 64) (j : Fin 8) (i : SB.Idx) : SP.Idx :=
  ix5 (⟨8 * (t.val / 8) + (i 0).val, by
      have h0 : (i 0).val < 8 := (i 0).isLt
      have ht := t.isLt
      omega⟩ : Fin 64)
    (⟨8 * (t.val % 8) + j.val, by
      have hj := j.isLt
      omega⟩ : Fin 64)
    (⟨(i 1).val, (i 1).isLt⟩ : Fin 3) (⟨(i 2).val, (i 2).isLt⟩ : Fin 64) (⟨(i 3).val, (i 3).isLt⟩ : Fin 64)

/-- Share `t` of the sum: the eight patches of board row `t % 8` for the eight samples of block `t / 8`. -/
def ptSum (X5 : SP.Idx → EReal) (T : ST.Idx → EReal) (t : Fin 64) : EReal :=
  ∑ j : Fin 8, ∑ i : SB.Idx, sqd X5 T (pidx t j i)

/-- Share `n` for a natural `n` (nothing beyond the 64 shares). -/
def ptN (X5 : SP.Idx → EReal) (T : ST.Idx → EReal) (n : ℕ) : EReal :=
  if h : n < 64 then ptSum X5 T ⟨n, h⟩ else 0

/-- The shares 0 … n added up. -/
def accN (X5 : SP.Idx → EReal) (T : ST.Idx → EReal) (n : ℕ) : EReal :=
  ∑ k ∈ Finset.range (n + 1), ptN X5 T k

theorem accN_zero (X5 : SP.Idx → EReal) (T : ST.Idx → EReal) : accN X5 T 0 = ptSum X5 T ⟨0, by decide⟩ := by
  unfold accN ptN
  rw [Finset.sum_range_one, dif_pos (by decide)]

theorem accN_succ (X5 : SP.Idx → EReal) (T : ST.Idx → EReal) (n : ℕ) (h : n + 1 < 64) :
    accN X5 T (n + 1) = accN X5 T n + ptSum X5 T ⟨n + 1, h⟩ := by
  unfold accN
  rw [Finset.sum_range_succ _ (n + 1)]
  congr 1
  unfold ptN
  rw [dif_pos h]

/-- Block-relative: element `i` of patch `j` inside a block of the split input. -/
def xsl (j : Fin 8) (i : SB.Idx) : SXB.Idx :=
  ix5 (⟨(i 0).val, (i 0).isLt⟩ : Fin 8) j (⟨(i 1).val, (i 1).isLt⟩ : Fin 3) (⟨(i 2).val, (i 2).isLt⟩ : Fin 64)
    (⟨(i 3).val, (i 3).isLt⟩ : Fin 64)

/-- Block-relative: the pixel of a target block that element `i` of patch `j` is compared with: column `64 j + i₃`. -/
def tsl (j : Fin 8) (i : SB.Idx) : STB.Idx :=
  ix4 (⟨(i 0).val, (i 0).isLt⟩ : Fin 8) (⟨(i 1).val, (i 1).isLt⟩ : Fin 3) (⟨(i 2).val, (i 2).isLt⟩ : Fin 64)
    (⟨64 * j.val + (i 3).val, by
      have h3 : (i 3).val < 64 := (i 3).isLt
      have hj := j.isLt
      omega⟩ : Fin 512)

/-- What one share adds, from its two blocks. -/
def blkSum (x0 : SXB.Idx → EReal) (x1 : STB.Idx → EReal) : EReal :=
  ∑ j : Fin 8, ∑ i : SB.Idx, (x0 (xsl j i) - x1 (tsl j i)) * (x0 (xsl j i) - x1 (tsl j i))

/-- Where index `y` of share `t`'s input block sits in the split input. -/
def xemb (t : Fin 64) (y : SXB.Idx) : SP.Idx :=
  ix5 (⟨8 * (t.val / 8) + (y 0).val, by
      have h0 : (y 0).val < 8 := (y 0).isLt
      have ht := t.isLt
      omega⟩ : Fin 64)
    (⟨8 * (t.val % 8) + (y 1).val, by
      have h1 : (y 1).val < 8 := (y 1).isLt
      omega⟩ : Fin 64)
    (⟨(y 2).val, (y 2).isLt⟩ : Fin 3) (⟨(y 3).val, (y 3).isLt⟩ : Fin 64) (⟨(y 4).val, (y 4).isLt⟩ : Fin 64)

/-- Where index `y` of share `t`'s target block sits in the target. -/
def temb (t : Fin 64) (y : STB.Idx) : ST.Idx :=
  ix4 (⟨8 * (t.val / 8) + (y 0).val, by
      have h0 : (y 0).val < 8 := (y 0).isLt
      have ht := t.isLt
      omega⟩ : Fin 64)
    (⟨(y 1).val, (y 1).isLt⟩ : Fin 3)
    (⟨64 * (t.val % 8) + (y 2).val, by
      have h2 : (y 2).val < 64 := (y 2).isLt
      omega⟩ : Fin 512)
    (⟨(y 3).val, (y 3).isLt⟩ : Fin 512)

/-- A block-relative input index, placed, is the share's element. -/
theorem xemb_xsl (t : Fin 64) (j : Fin 8) (i : SB.Idx) : xemb t (xsl j i) = pidx t j i := by
  funext a
  match a with
  | ⟨0, _⟩ => rfl
  | ⟨1, _⟩ => rfl
  | ⟨2, _⟩ => rfl
  | ⟨3, _⟩ => rfl
  | ⟨4, _⟩ => rfl

/-- A block-relative target index, placed, is the pixel the share's element is compared with: patch `8 (t % 8) + j`
    is on board row `t % 8`, board column `j`. -/
theorem temb_tsl (t : Fin 64) (j : Fin 8) (i : SB.Idx) : temb t (tsl j i) = tgt (pidx t j i) := by
  have hj := j.isLt
  funext a
  match a with
  | ⟨0, _⟩ => rfl
  | ⟨1, _⟩ => rfl
  | ⟨2, _⟩ => exact Fin.ext (by show 64 * (t.val % 8) + (i 2).val = (8 * (t.val % 8) + j.val) / 8 * 64 + (i 2).val; omega)
  | ⟨3, _⟩ => exact Fin.ext (by show 64 * j.val + (i 3).val = (8 * (t.val % 8) + j.val) % 8 * 64 + (i 3).val; omega)

/-- So a share read out of its two blocks is the share. -/
theorem blkSum_eq_ptSum (X5 : SP.Idx → EReal) (T : ST.Idx → EReal) (t : Fin 64) :
    blkSum (fun y => X5 (xemb t y)) (fun y => T (temb t y)) = ptSum X5 T t := by
  unfold blkSum ptSum sqd
  refine Finset.sum_congr rfl fun j _ => Finset.sum_congr rfl fun i _ => ?_
  dsimp only
  rw [xemb_xsl, temb_tsl]

end Cert.PatchLoss

end
-- ==== Proof.Regroup.lean ====
/-
  The 64 shares exhaust the sum: every element (sample, patch, channel, row, column) of the split input lies in
  exactly one share `t`, one patch `j` of its board row and one position `i` — sample `8 (t / 8) + i₀`, patch
  `8 (t % 8) + j` — so adding the shares up is adding everything up, in another order.
-/
import proofs.«404872_j16879221473428_3_alg».proof.Proof.Spec

noncomputable section

open scoped BigOperators

namespace Cert.PatchLoss

open Idealize.ShloMosaic Idealize.ShloMosaic.ValueIdx

/-- Every element of the split input is element `i` of patch `j` of share `t` for exactly one (t, j, i): with
    sample `n` and patch `q`, the share is `8 (n / 8) + q / 8` (sample block `n / 8`, board row `q / 8`), the patch
    within the board row is `q % 8`, and the sample within the block is `n % 8`. -/
def shareEquiv : Fin 64 × Fin 8 × SB.Idx ≃ SP.Idx where
  toFun x := pidx x.1 x.2.1 x.2.2
  invFun p :=
    ((⟨8 * ((p 0).val / 8) + (p 1).val / 8, by
        have h0 : (p 0).val < 64 := (p 0).isLt
        have h1 : (p 1).val < 64 := (p 1).isLt
        omega⟩ : Fin 64),
     (⟨(p 1).val % 8, by omega⟩ : Fin 8),
     ix4 (⟨(p 0).val % 8, by omega⟩ : Fin 8) (⟨(p 2).val, (p 2).isLt⟩ : Fin 3) (⟨(p 3).val, (p 3).isLt⟩ : Fin 64)
       (⟨(p 4).val, (p 4).isLt⟩ : Fin 64))
  left_inv := by
    rintro ⟨t, j, i⟩
    have ht := t.isLt
    have hj := j.isLt
    have h0 : (i 0).val < 8 := (i 0).isLt
    refine Prod.ext ?_ (Prod.ext ?_ ?_)
    · -- 8 ((8 (t / 8) + i₀) / 8) + (8 (t % 8) + j) / 8 = 8 (t / 8) + t % 8 = t
      exact Fin.ext (by
        show 8 * ((8 * (t.val / 8) + (i 0).val) / 8) + (8 * (t.val % 8) + j.val) / 8 = t.val
        omega)
    · exact Fin.ext (by
        show (8 * (t.val % 8) + j.val) % 8 = j.val
        omega)
    · funext a
      match a with
      | ⟨0, _⟩ =>
        exact Fin.ext (by
          show (8 * (t.val / 8) + (i 0).val) % 8 = (i 0).val
          omega)
      | ⟨1, _⟩ => rfl
      | ⟨2, _⟩ => rfl
      | ⟨3, _⟩ => rfl
  right_inv := by
    intro p
    have h0 : (p 0).val < 64 := (p 0).isLt
    have h1 : (p 1).val < 64 := (p 1).isLt
    funext a
    match a with
    | ⟨0, _⟩ =>
      -- 8 ((8 (n / 8) + q / 8) / 8) + n % 8 = 8 (n / 8) + n % 8 = n, since q / 8 < 8
      exact Fin.ext (by
        show 8 * ((8 * ((p 0).val / 8) + (p 1).val / 8) / 8) + (p 0).val % 8 = (p 0).val
        omega)
    | ⟨1, _⟩ =>
      exact Fin.ext (by
        show 8 * ((8 * ((p 0).val / 8) + (p 1).val / 8) % 8) + (p 1).val % 8 = (p 1).val
        omega)
    | ⟨2, _⟩ => rfl
    | ⟨3, _⟩ => rfl
    | ⟨4, _⟩ => rfl

/-- The shares add up to the total. -/
theorem sum_shares (X5 : SP.Idx → EReal) (T : ST.Idx → EReal) : ∑ t : Fin 64, ptSum X5 T t = total X5 T := by
  unfold ptSum total
  -- the total, summed over (t, j, i) instead of over the elements
  rw [← Fintype.sum_equiv shareEquiv (fun x => sqd X5 T (pidx x.1 x.2.1 x.2.2)) (fun p => sqd X5 T p) (fun _ => rfl)]
  -- and a sum over triples is the triple sum
  rw [Fintype.sum_prod_type]
  refine Finset.sum_congr rfl fun t _ => ?_
  rw [Fintype.sum_prod_type]

/-- The running sum after the last share is the total. -/
theorem accN_last (X5 : SP.Idx → EReal) (T : ST.Idx → EReal) : accN X5 T 63 = total X5 T := by
  unfold accN
  rw [Finset.sum_range, ← sum_shares]
  refine Finset.sum_congr rfl fun k _ => ?_
  unfold ptN
  rw [dif_pos k.isLt]

end Cert.PatchLoss

end
-- ==== Proof.Payload.lean ====
/-
  The kernel body's arithmetic at the ideal instance. From its two blocks one grid point forms, patch by patch, the
  difference of the input's patch and the target's matching band of 64 columns, squares it, and sums it — first over
  (sample, channel, row) flattened to 1536, then over the 64 columns — adding the eight patch sums to zero and the
  result to what the accumulator held; the first point stores zero first; the last point multiplies the accumulator by
  the constant the certificate names 1/50331648.
-/
import proofs.«404872_j16879221473428_3_alg».proof.Proof.Spec
import proofs.«404872_j16879221473428_3_alg».proof.Proof.Gen.KernelIdeal.Skeleton
import Idealize.ShloMosaic.Lib.Pipeline.Value
import Idealize.ShloMosaic.Lib.ValueLayout
import Idealize.ShloMosaic.PureOps.Ideal.Laws
import Idealize.ShloMosaic.PureOps.IdealRules
import Mathlib.Algebra.BigOperators.Fin

noncomputable section

open scoped BigOperators

namespace Cert.KernelIdeal.PayValue

open Idealize.ShloMosaic Idealize.ShloMosaic.ValueIdx Cert.KernelIdeal Cert.KernelIdeal.Gen Cert.PatchLoss

/-- The sum of a rank-4 patch taken in two steps — flattened to 1536 rows of 64, summed down the rows, then along the
    row of 64 sums — is the sum over the patch. -/
theorem patch_total (v : FVec Ideal S8x3x64x64 .f32) (hc1 : S8x3x64x64.ShapeCasts S1536x64) (hr1 : S1536x64.Reduces [0] S64)
    (hc2 : S64.ShapeCasts S1x64) (hr2 : S1x64.Reduces [1] S1) (hc3 : S1.ShapeCasts S1x1) (y : S1x1.Idx) :
    shapeCast S1x1 (multiReduction .add [1] S1 (shapeCast S1x64 (multiReduction .add [0] S64 (shapeCast S1536x64 v hc1)
      0x00000000#32 hr1 (.inl rfl) rfl) hc2) 0x00000000#32 hr2 (.inl rfl) rfl) hc3 y = ∑ i : S8x3x64x64.Idx, v i := by
  have h1 : ∀ b, S1.size b = 1 := fun b => by
    match b with
    | ⟨0, _⟩ => rfl
  -- the second reduction's one entry is the sum of the whole row of 64
  refine (Ideal.multiReduction_add_total (shapeCast S1x64 _ hc2) _ hr2 h1 (.inl rfl) rfl (Shape.reshapeEquiv hc3 y)).trans ?_
  rw [sum_idx2, Fin.sum_univ_one]
  -- entry l of that row is the sum down column l of the 1536 × 64 array
  have e2 : ∀ l : Fin 64, shapeCast S1x64 (multiReduction .add [0] S64 (shapeCast S1536x64 v hc1)
      0x00000000#32 hr1 (.inl rfl) rfl) hc2 (ix2 (0 : Fin 1) l) = ∑ r : Fin 1536, shapeCast S1536x64 v hc1 (ix2 r l) := fun l => by
    refine (shapeCast_a_1a_apply _ hc2 0 l).trans ?_
    refine (Ideal.multiReduction_add_single (shapeCast S1536x64 v hc1) _ hr1 (.inl rfl) rfl (ix1 l)).trans ?_
    refine Finset.sum_congr rfl fun r _ => congrArg _ ?_
    funext c
    match c with
    | ⟨0, _⟩ => exact Fin.ext rfl
    | ⟨1, _⟩ => exact Fin.ext rfl
  rw [Finset.sum_congr rfl fun l _ => e2 l, Finset.sum_comm, ← sum_idx2]
  -- and the flattened array runs through the patch's elements once each
  exact Equiv.sum_comp (Shape.reshapeEquiv hc1) v

/-- Patch `j` of the input block, cut out along the patch axis and its unit axis dropped, reads at `i` the block at
    `xsl j i`: dropping the unit axis keeps the row-major position, and the cut shifts the patch coordinate by `j`. -/
theorem xpatch_apply (j : Fin 8) (x0 : FVec Ideal S8x8x3x64x64 .f32) (off5 : Fin 5 → ℕ)
    (h5 : S8x8x3x64x64.Slices off5 S8x1x3x64x64) (hc : S8x1x3x64x64.ShapeCasts S8x3x64x64)
    (ho5 : off5 = ![0, j.val, 0, 0, 0]) (i : SB.Idx) :
    shapeCast S8x3x64x64 (extractStridedSlice S8x1x3x64x64 off5 x0 h5) hc i = x0 (xsl j i) := by
  subst ho5
  refine (shapeCast_apply _ hc i (ix5 (⟨(i 0).val, (i 0).isLt⟩ : Fin 8) (0 : Fin 1) (⟨(i 1).val, (i 1).isLt⟩ : Fin 3)
    (⟨(i 2).val, (i 2).isLt⟩ : Fin 64) (⟨(i 3).val, (i 3).isLt⟩ : Fin 64)) ?_).trans ?_
  · rw [Shape.rowMajor_val_five, Shape.rowMajor_val_four]
    show ((((i 0).val * 1 + 0) * 3 + (i 1).val) * 64 + (i 2).val) * 64 + (i 3).val
      = (((i 0).val * 3 + (i 1).val) * 64 + (i 2).val) * 64 + (i 3).val
    omega
  · refine extractStridedSlice_apply _ x0 h5 _ (xsl j i) fun a => ?_
    match a with
    | ⟨0, _⟩ => exact (Nat.zero_add _).symm
    | ⟨1, _⟩ => exact (Nat.add_zero _).symm
    | ⟨2, _⟩ => exact (Nat.zero_add _).symm
    | ⟨3, _⟩ => exact (Nat.zero_add _).symm
    | ⟨4, _⟩ => exact (Nat.zero_add _).symm

/-- The band of 64 columns of the target block that patch `j` is compared with reads at `i` the block at `tsl j i`:
    the cut shifts the column by `64 j`. -/
theorem tpatch_apply (j : Fin 8) (x1 : Vec Ideal S8x3x64x512 .f32) (off4 : Fin 4 → ℕ)
    (h4 : S8x3x64x512.Slices off4 S8x3x64x64) (ho4 : off4 = ![0, 0, 0, 64 * j.val]) (i : SB.Idx) :
    extractStridedSlice S8x3x64x64 off4 x1 h4 i = x1 (tsl j i) := by
  subst ho4
  refine extractStridedSlice_apply _ x1 h4 i (tsl j i) fun a => ?_
  match a with
  | ⟨0, _⟩ => exact (Nat.zero_add _).symm
  | ⟨1, _⟩ => exact (Nat.zero_add _).symm
  | ⟨2, _⟩ => exact (Nat.zero_add _).symm
  | ⟨3, _⟩ => exact rfl

/-- One patch's contribution: the squared difference of the input's patch `j` and the target's band `j`, summed in
    the two steps, is the sum over the patch's elements of the squared differences read out of the two blocks. -/
theorem patch_val (j : Fin 8) (x0 : FVec Ideal S8x8x3x64x64 .f32) (x1 : Vec Ideal S8x3x64x512 .f32)
    (off5 : Fin 5 → ℕ) (off4 : Fin 4 → ℕ) (h5 : S8x8x3x64x64.Slices off5 S8x1x3x64x64)
    (h4 : S8x3x64x512.Slices off4 S8x3x64x64) (hc : S8x1x3x64x64.ShapeCasts S8x3x64x64)
    (hc1 : S8x3x64x64.ShapeCasts S1536x64) (hr1 : S1536x64.Reduces [0] S64)
    (hc2 : S64.ShapeCasts S1x64) (hr2 : S1x64.Reduces [1] S1) (hc3 : S1.ShapeCasts S1x1)
    (ho5 : off5 = ![0, j.val, 0, 0, 0]) (ho4 : off4 = ![0, 0, 0, 64 * j.val]) (y : S1x1.Idx) :
    shapeCast S1x1 (multiReduction .add [1] S1 (shapeCast S1x64 (multiReduction .add [0] S64 (shapeCast S1536x64
      (mulf (subf (shapeCast S8x3x64x64 (extractStridedSlice S8x1x3x64x64 off5 x0 h5) hc) (extractStridedSlice S8x3x64x64 off4 x1 h4))
        (subf (shapeCast S8x3x64x64 (extractStridedSlice S8x1x3x64x64 off5 x0 h5) hc) (extractStridedSlice S8x3x64x64 off4 x1 h4))) hc1)
      0x00000000#32 hr1 (.inl rfl) rfl) hc2) 0x00000000#32 hr2 (.inl rfl) rfl) hc3 y
      = ∑ i : SB.Idx, (x0 (xsl j i) - x1 (tsl j i)) * (x0 (xsl j i) - x1 (tsl j i)) := by
  refine (patch_total _ hc1 hr1 hc2 hr2 hc3 y).trans ?_
  refine Finset.sum_congr rfl fun i _ => ?_
  rw [mulf_apply, subf_apply, xpatch_apply j x0 off5 h5 hc ho5 i, tpatch_apply j x1 off4 h4 ho4 i]

/-- The first point's reset stores zero. -/
theorem pay_reset : (k0_pay3 (F := Ideal)) = fun _ => (0 : EReal) := by
  unfold k0_pay3
  funext y
  refine (congrFun (shapeCast_self _ _) y).trans ?_
  show Ideal.ofBits .f32 0x00000000#32 = 0
  exact Ideal.ofBits_zero_f32

/-- The accumulator after a point is what it held plus the point's share, read out of the point's two blocks. -/
theorem pay_acc (x0 : Vec Ideal S8x8x3x64x64 .f32) (x1 : Vec Ideal S8x3x64x512 .f32) (prev : Vec Ideal S1x1 .f32) :
    k0_pay1 (k0_pay4 x0) x1 (k0_pay7 (k0_pay4 x0) x1 (k0_pay5 x0 x1) (k0_pay6 x0 x1)) (k0_pay8 (k0_pay4 x0) x1) prev
      = fun y => prev y + blkSum x0 x1 := by
  -- the input block's cast to its own shape is the block
  have hp4 : k0_pay4 (F := Ideal) x0 = x0 := shapeCast_self x0 _
  funext y
  -- the eight patches' contributions
  have e0 := patch_val 0 x0 x1 ![0, 0, 0, 0, 0] ![0, 0, 0, 0] slices_S8x8x3x64x64_o0_0_0_0_0_S8x1x3x64x64
    slices_S8x3x64x512_o0_0_0_0_S8x3x64x64 shapeCasts_S8x1x3x64x64_S8x3x64x64 shapeCasts_S8x3x64x64_S1536x64
    reduces_S1536x64_S64 shapeCasts_S64_S1x64 reduces_S1x64_S1 shapeCasts_S1_S1x1 rfl rfl y
  have e1 := patch_val 1 x0 x1 ![0, 1, 0, 0, 0] ![0, 0, 0, 64] slices_S8x8x3x64x64_o0_1_0_0_0_S8x1x3x64x64
    slices_S8x3x64x512_o0_0_0_64_S8x3x64x64 shapeCasts_S8x1x3x64x64_S8x3x64x64 shapeCasts_S8x3x64x64_S1536x64
    reduces_S1536x64_S64 shapeCasts_S64_S1x64 reduces_S1x64_S1 shapeCasts_S1_S1x1 rfl rfl y
  have e2 := patch_val 2 x0 x1 ![0, 2, 0, 0, 0] ![0, 0, 0, 128] slices_S8x8x3x64x64_o0_2_0_0_0_S8x1x3x64x64
    slices_S8x3x64x512_o0_0_0_128_S8x3x64x64 shapeCasts_S8x1x3x64x64_S8x3x64x64 shapeCasts_S8x3x64x64_S1536x64
    reduces_S1536x64_S64 shapeCasts_S64_S1x64 reduces_S1x64_S1 shapeCasts_S1_S1x1 rfl rfl y
  have e3 := patch_val 3 x0 x1 ![0, 3, 0, 0, 0] ![0, 0, 0, 192] slices_S8x8x3x64x64_o0_3_0_0_0_S8x1x3x64x64
    slices_S8x3x64x512_o0_0_0_192_S8x3x64x64 shapeCasts_S8x1x3x64x64_S8x3x64x64 shapeCasts_S8x3x64x64_S1536x64
    reduces_S1536x64_S64 shapeCasts_S64_S1x64 reduces_S1x64_S1 shapeCasts_S1_S1x1 rfl rfl y
  have e4 := patch_val 4 x0 x1 ![0, 4, 0, 0, 0] ![0, 0, 0, 256] slices_S8x8x3x64x64_o0_4_0_0_0_S8x1x3x64x64
    slices_S8x3x64x512_o0_0_0_256_S8x3x64x64 shapeCasts_S8x1x3x64x64_S8x3x64x64 shapeCasts_S8x3x64x64_S1536x64
    reduces_S1536x64_S64 shapeCasts_S64_S1x64 reduces_S1x64_S1 shapeCasts_S1_S1x1 rfl rfl y
  have e5 := patch_val 5 x0 x1 ![0, 5, 0, 0, 0] ![0, 0, 0, 320] slices_S8x8x3x64x64_o0_5_0_0_0_S8x1x3x64x64
    slices_S8x3x64x512_o0_0_0_320_S8x3x64x64 shapeCasts_S8x1x3x64x64_S8x3x64x64 shapeCasts_S8x3x64x64_S1536x64
    reduces_S1536x64_S64 shapeCasts_S64_S1x64 reduces_S1x64_S1 shapeCasts_S1_S1x1 rfl rfl y
  have e6 := patch_val 6 x0 x1 ![0, 6, 0, 0, 0] ![0, 0, 0, 384] slices_S8x8x3x64x64_o0_6_0_0_0_S8x1x3x64x64
    slices_S8x3x64x512_o0_0_0_384_S8x3x64x64 shapeCasts_S8x1x3x64x64_S8x3x64x64 shapeCasts_S8x3x64x64_S1536x64
    reduces_S1536x64_S64 shapeCasts_S64_S1x64 reduces_S1x64_S1 shapeCasts_S1_S1x1 rfl rfl y
  have e7 := patch_val 7 x0 x1 ![0, 7, 0, 0, 0] ![0, 0, 0, 448] slices_S8x8x3x64x64_o0_7_0_0_0_S8x1x3x64x64
    slices_S8x3x64x512_o0_0_0_448_S8x3x64x64 shapeCasts_S8x1x3x64x64_S8x3x64x64 shapeCasts_S8x3x64x64_S1536x64
    reduces_S1536x64_S64 shapeCasts_S64_S1x64 reduces_S1x64_S1 shapeCasts_S1_S1x1 rfl rfl y
  unfold k0_pay1 k0_pay7 k0_pay5 k0_pay6 k0_pay8
  rw [hp4]
  dsimp only
  unfold blkSum
  rw [Fin.sum_univ_eight, ← e0, ← e1, ← e2, ← e3, ← e4, ← e5, ← e6, ← e7]
  -- the result's cast to its own shape is the result; the eight are added in order to zero
  refine (congrFun (shapeCast_self _ _) y).trans ?_
  show prev y + ((((((((Ideal.ofBits .f32 0x00000000#32 + _) + _) + _) + _) + _) + _) + _) + _) = _
  rw [Ideal.ofBits_zero_f32, zero_add]

/-- The last point's result is the accumulator times the named 1/50331648. -/
theorem pay_out (v : Vec Ideal S1x1 .f32) :
    k0_pay2 (F := Ideal) v = fun y => v y * ((1 / 50331648 : ℝ) : EReal) := by
  have hc : Named.named (F := Ideal) κ "inv_total" (φ := .f32) 0x32AAAAAB#32 = ((1 / 50331648 : ℝ) : EReal) :=
    IdealRules.named_const.ideal_named_scalar _ _ _ _ rfl
  unfold k0_pay2
  funext y
  show v y * Named.named (F := Ideal) κ "inv_total" (φ := .f32) 0x32AAAAAB#32 = _
  rw [hc]

end Cert.KernelIdeal.PayValue

end
-- ==== Proof.Pieces.lean ====
/-
  What one run of the kernel body leaves behind, as values. The accumulator is a one-element scratch the body keeps
  from grid point to grid point; the output is one element, written at the last point only.
  At the first point the body stores zero into the accumulator, reads it back, and stores (that + the point's share);
  at every other point it reads what the point before left and stores (that + the share); at the last point it
  further reads the accumulator back and stores its product with the scaling constant into the output.
  Each store covers the whole one-element buffer, so the buffer ends at the last store's value, and a load after a
  store reads the stored value.
-/
import proofs.«404872_j16879221473428_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz2 : (![0, 0] : Fin 2 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The accumulator's new value from the point's two blocks and its old value: old + the point's share. -/
abbrev step (x0 : Vec F S8x8x3x64x64 .f32) (x1 : Vec F S8x3x64x512 .f32) (prev : Vec F S1x1 .f32) : Vec F S1x1 .f32 :=
  k0_pay1 (k0_pay4 x0) x1 (k0_pay7 (k0_pay4 x0) x1 (k0_pay5 x0 x1) (k0_pay6 x0 x1)) (k0_pay8 (k0_pay4 x0) x1) prev

/-- A middle point leaves the accumulator at (what it found) + (its share). -/
theorem scratch_B (c : Dev nD) (i : grid0.Coords) (a2 : Memref sig .tc .vmem S8x8x3x64x64 .f32) (h2 : a2.IsWhole)
    (a3 : Memref sig .tc .vmem S8x3x64x512 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 : Vec F S8x8x3x64x64 .f32) (x1 : Vec F S8x3x64x512 .f32) (xs0 : Vec F S1x1 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S8x8x3x64x64) hz5,
    View.ld_unit_zero (S := S8x3x64x512) hz4, View.ld_unit_zero (S := S1x1) hz2]

/-- The last point leaves the accumulator the same way, -/
theorem scratch_C (c : Dev nD) (i : grid0.Coords) (a2 : Memref sig .tc .vmem S8x8x3x64x64 .f32) (h2 : a2.IsWhole)
    (a3 : Memref sig .tc .vmem S8x3x64x512 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 : Vec F S8x8x3x64x64 .f32) (x1 : Vec F S8x3x64x512 .f32) (xs0 : Vec F S1x1 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S8x8x3x64x64) hz5,
    View.ld_unit_zero (S := S8x3x64x512) hz4, View.ld_unit_zero (S := S1x1) hz2]

/-- and the output at the accumulator's new value, scaled. -/
theorem out_C (c : Dev nD) (i : grid0.Coords) (a2 : Memref sig .tc .vmem S8x8x3x64x64 .f32) (h2 : a2.IsWhole)
    (a3 : Memref sig .tc .vmem S8x3x64x512 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 : Vec F S8x8x3x64x64 .f32) (x1 : Vec F S8x3x64x512 .f32) (xs0 : Vec F S1x1 .f32) :
    out0_C_2 c i a2 h2 a3 h3 a4 h4 a5 h5 hc0 hc1 x0 x1 xs0 = k0_pay2 (step x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S8x8x3x64x64) hz5,
    View.ld_unit_zero (S := S8x3x64x512) hz4, View.ld_unit_zero (S := S1x1) hz2, View.readCov_unit_zero (S := S1x1) _ hz2]

/-- The first point leaves the accumulator at (zero) + (its share): it reads back the zero it has just stored. -/
theorem scratch_A (c : Dev nD) (i : grid0.Coords) (a2 : Memref sig .tc .vmem S8x8x3x64x64 .f32) (h2 : a2.IsWhole)
    (a3 : Memref sig .tc .vmem S8x3x64x512 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 : Vec F S8x8x3x64x64 .f32) (x1 : Vec F S8x3x64x512 .f32) :
    sout0_A_0 c i a2 h2 a3 h3 a4 h4 a5 h5 hc0 hc1 x0 x1 = step x0 x1 (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2]
  simp only [View.readAt_eq_ld, h2.read_unread, h3.read_unread, View.ld_unit_zero (S := S8x8x3x64x64) hz5,
    View.ld_unit_zero (S := S8x3x64x512) hz4, View.ld_unit_zero (S := S1x1) hz2, View.readCov_unit_zero (S := S1x1) _ hz2]

end Cert.KernelIdeal.Pieces

end
-- ==== Proof.KernelValue.lean ====
/-
  The kernel's run, read as a value at the ideal instance. The region finds the input already split into
  (sample, patch, channel, row, column); grid point `t` stages the block of eight samples `8 (t / 8) …` and eight
  patches `8 (t % 8) …` of it, and the band of pixel rows `64 (t % 8) …` of the same eight samples of the target:
  exactly the two blocks share `t` of the sum is read from. So the accumulator after point `n` holds the shares
  0 … n added up (induction on the point), the last point writes that sum — all 64 shares, the whole total — times
  1/50331648 into the one-element output, the one write-back copies it to the result array, and the reshape after
  the region hands it on as the scalar result.
-/
import proofs.«404872_j16879221473428_3_alg».proof.Proof.Spec
import proofs.«404872_j16879221473428_3_alg».proof.Proof.Regroup
import proofs.«404872_j16879221473428_3_alg».proof.Proof.Payload
import proofs.«404872_j16879221473428_3_alg».proof.Proof.Pieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.PatchLoss Cert.KernelIdeal.Pieces Cert.KernelIdeal.PayValue

variable (m : (ℓ : Loc nD τ sig) → Buf (Elt Ideal) ℓ) (ρ : Dev nD → PrngReg)

/-- The target images as launched. -/
abbrev tin (c : Dev nD) : ST.Idx → EReal := m ((c.tc : Thread nD τ).loc main_arg1)
/-- The input as launched, read with each patch split into (channel, row, column). -/
abbrev X5 (c : Dev nD) : SP.Idx → EReal :=
  shapeCast SP (m ((c.tc : Thread nD τ).loc main_arg0)) shapeCasts_S64x64x12288_S64x64x3x64x64

/-- A grid point as one of the 64 shares. -/
abbrev pt (t : Fin cfg0.N) : Fin 64 := ⟨t.val, lt_of_lt_of_eq t.isLt (show cfg0.N = 64 from N_0)⟩

/-- The region finds the split input in the first window's array: the reshape before it wrote it. -/
theorem V_main_v0 (c : Dev nD) : (V m c main_v0 : SP.Idx → EReal) = X5 m c := by
  show StableHlo.after hostOps0 (fun b => m (c, b)) (Proc.devRef .tc main_v0) = _
  after_results
  rfl

/-- The first window's block index at point `t`: (t / 8, t % 8, 0, 0, 0). -/
theorem idx0 : ∀ t : Fin cfg0.N, win0_0.index t 0 = t.val / 8 ∧ win0_0.index t 1 = t.val % 8 ∧ win0_0.index t 2 = 0
    ∧ win0_0.index t 3 = 0 ∧ win0_0.index t 4 = 0 :=
  (by decide +kernel : ∀ t : Fin grid0.N, win0_0.index t 0 = t.val / 8 ∧ win0_0.index t 1 = t.val % 8 ∧ win0_0.index t 2 = 0
    ∧ win0_0.index t 3 = 0 ∧ win0_0.index t 4 = 0)

/-- The second window's block index at point `t`: (t / 8, 0, t % 8, 0). -/
theorem idx1 : ∀ t : Fin cfg0.N, win0_1.index t 0 = t.val / 8 ∧ win0_1.index t 1 = 0 ∧ win0_1.index t 2 = t.val % 8
    ∧ win0_1.index t 3 = 0 :=
  (by decide +kernel : ∀ t : Fin grid0.N, win0_1.index t 0 = t.val / 8 ∧ win0_1.index t 1 = 0 ∧ win0_1.index t 2 = t.val % 8
    ∧ win0_1.index t 3 = 0)

/-- The input block staged at point `t` is the split input read at the share's placement. -/
theorem xblk_eq (c : Dev nD) (t : Fin cfg0.N) :
    (iblk m c 0 t : Vec Ideal S8x8x3x64x64 .f32) = fun y => X5 m c (xemb (pt t) y) := by
  funext y
  unfold iblk
  rw [View.read_apply]
  show V m c main_v0 _ = _
  rw [V_main_v0]
  refine congrArg (X5 m c) (funext fun a => Fin.ext ?_)
  obtain ⟨e0, e1, e2, e3, e4⟩ := idx0 t
  match a with
  | ⟨0, _⟩ => show win0_0.index t 0 * 8 + 1 * (y 0).val = 8 * (t.val / 8) + (y 0).val; rw [e0]; omega
  | ⟨1, _⟩ => show win0_0.index t 1 * 8 + 1 * (y 1).val = 8 * (t.val % 8) + (y 1).val; rw [e1]; omega
  | ⟨2, _⟩ => show win0_0.index t 2 * 3 + 1 * (y 2).val = (y 2).val; rw [e2]; omega
  | ⟨3, _⟩ => show win0_0.index t 3 * 64 + 1 * (y 3).val = (y 3).val; rw [e3]; omega
  | ⟨4, _⟩ => show win0_0.index t 4 * 64 + 1 * (y 4).val = (y 4).val; rw [e4]; omega

/-- The target block staged at point `t` is the target read at the share's placement. -/
theorem tblk_eq (c : Dev nD) (t : Fin cfg0.N) :
    (iblk m c 1 t : Vec Ideal S8x3x64x512 .f32) = fun y => tin m c (temb (pt t) y) := by
  funext y
  unfold iblk
  rw [View.read_apply]
  show V m c main_arg1 _ = _
  rw [V_main_arg1]
  refine congrArg (tin m c) (funext fun a => Fin.ext ?_)
  obtain ⟨e0, e1, e2, e3⟩ := idx1 t
  match a with
  | ⟨0, _⟩ => show win0_1.index t 0 * 8 + 1 * (y 0).val = 8 * (t.val / 8) + (y 0).val; rw [e0]; omega
  | ⟨1, _⟩ => show win0_1.index t 1 * 3 + 1 * (y 1).val = (y 1).val; rw [e1]; omega
  | ⟨2, _⟩ => show win0_1.index t 2 * 64 + 1 * (y 2).val = 64 * (t.val % 8) + (y 2).val; rw [e2]; omega
  | ⟨3, _⟩ => show win0_1.index t 3 * 512 + 1 * (y 3).val = (y 3).val; rw [e3]; omega

/-- What one point makes of the accumulator: what it held plus the point's share. -/
theorem step_eq (c : Dev nD) (t : Fin cfg0.N) (prev : Vec Ideal S1x1 .f32) :
    step (iblk m c 0 t) (iblk m c 1 t) prev = fun y => prev y + ptSum (X5 m c) (tin m c) (pt t) := by
  rw [xblk_eq m c t, tblk_eq m c t]
  refine (pay_acc _ _ prev).trans ?_
  rw [blkSum_eq_ptSum]

/-- After point `n` the accumulator holds the shares 0 … n added up: by induction on the point. -/
theorem scratch_eq (c : Dev nD) : ∀ (n : ℕ) (hn : n < cfg0.N),
    (outsAt0 m c n hn).2 = fun _ => accN (X5 m c) (tin m c) n
  | 0, hn => by
    rw [outsAt0_A m c ⟨0, hn⟩ rfl (show ¬(0 % 64 = 63) by decide)]
    dsimp only
    refine (scratch_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) scM0_0 (Memref.isWhole_whole _) _ _ (iblk m c 0 ⟨0, hn⟩) (iblk m c 1 ⟨0, hn⟩)).trans ?_
    rw [step_eq, pay_reset]
    funext y
    rw [accN_zero, zero_add]
  | n + 1, hn => by
    have hN : n + 1 < 64 := lt_of_lt_of_eq hn (show cfg0.N = 64 from N_0)
    have h0 : ¬(⟨n + 1, hn⟩ : Fin cfg0.N).val % 64 = 0 := by dsimp only; omega
    have ih := scratch_eq c n (Nat.lt_of_succ_lt hn)
    by_cases h1 : (⟨n + 1, hn⟩ : Fin cfg0.N).val % 64 = 63
    · rw [outsAt0_C m c ⟨n + 1, hn⟩ h0 h1]
      dsimp only
      refine (scratch_C (F := Ideal) c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) scM0_0 (Memref.isWhole_whole _) _ _
        (iblk m c 0 ⟨n + 1, hn⟩) (iblk m c 1 ⟨n + 1, hn⟩) _).trans ?_
      rw [step_eq]
      funext y
      show (outsAt0 m c n _).2 y + _ = _
      rw [ih, accN_succ _ _ n hN]
    · rw [outsAt0_B m c ⟨n + 1, hn⟩ h0 h1]
      dsimp only
      refine (scratch_B (F := Ideal) c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) scM0_0 (Memref.isWhole_whole _) _ _
        (iblk m c 0 ⟨n + 1, hn⟩) (iblk m c 1 ⟨n + 1, hn⟩) _).trans ?_
      rw [step_eq]
      funext y
      show (outsAt0 m c n _).2 y + _ = _
      rw [ih, accN_succ _ _ n hN]

/-- The loss: the total of the squared differences times 1/50331648, as a one-element array. -/
abbrev result (c : Dev nD) : Vec Ideal S1x1 .f32 :=
  fun _ => total (X5 m c) (tin m c) * ((1 / 50331648 : ℝ) : EReal)

/-- The last point leaves the loss in the output's staging buffer: all 64 shares are in, and their sum is the total. -/
theorem out_last (c : Dev nD) (hn : 63 < cfg0.N) : (outsAt0 m c 63 hn).1 = result m c := by
  rw [outsAt0_C m c ⟨63, hn⟩ (show ¬(63 % 64 = 0) by decide) (show 63 % 64 = 63 by decide)]
  dsimp only
  refine (out_C (F := Ideal) c (grid0.coords ⟨63, hn⟩) (ms0_0 ⟨63, hn⟩) (hs0_0 ⟨63, hn⟩) (ms0_1 ⟨63, hn⟩)
    (hs0_1 ⟨63, hn⟩) (ms0_2 ⟨63, hn⟩) (hs0_2 ⟨63, hn⟩) scM0_0 (Memref.isWhole_whole _) _ _
    (iblk m c 0 ⟨63, hn⟩) (iblk m c 1 ⟨63, hn⟩) _).trans ?_
  rw [step_eq, pay_out]
  funext y
  show ((outsAt0 m c 62 _).2 y + _) * _ = _
  rw [scratch_eq m c 62, ← accN_succ _ _ 62 (by decide), accN_last]

/-- The last grid point. -/
abbrev tlast : Fin cfg0.N := ⟨63, by rw [show cfg0.N = 64 from N_0]; decide⟩

/-- The one write-back, at the last point, writes the loss: the output's block is the whole one-element array. -/
theorem flushed_eq (c : Dev nD) (t : Fin cfg0.N) (hf : (cfg0.win 2).flush t = true) :
    (dats m 0 c).flushed 2 t = ((cfg0.win 2).blk t).view.read (Elt Ideal) (result m c) := by
  have hN : t.val < 64 := lt_of_lt_of_eq t.isLt (show cfg0.N = 64 from N_0)
  have h63 : t.val = 63 := by have := (flush0_2 t).mp hf; omega
  obtain rfl : t = tlast := Fin.ext h63
  show (cfg0.win 2).cut (grid0.coords tlast) ((dats m 0 c).after 2 tlast) = _
  rw [after0_2, out_last]
  funext y
  rw [View.read_apply]
  rfl

/-- So the result array of the region ends holding the loss: the last point's block covers its one element. -/
theorem final (c : Dev nD) : (dats m 0 c).arrAt 2 cfg0.N = result m c :=
  (dats m 0 c).arrAt_eq_of_cover 2 (result m c) (flushed_eq m c) fun i =>
    ⟨tlast, (flush0_2 tlast).mpr rfl, by
      show i ∈ ((View.whole main_v1).slice (win0_2.rect tlast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tlast 0 * win0_2.size 0 ≤ (i 0 : Nat) ∧ (i 0 : Nat) < win0_2.index tlast 0 * win0_2.size 0 + win0_2.xsize (grid0.coords tlast) 0
        rw [show win0_2.index tlast 0 * win0_2.size 0 = 0 from by decide +kernel, show win0_2.xsize (grid0.coords tlast) 0 = 1 from by decide +kernel]
        omega
      | ⟨1, _⟩ =>
        show win0_2.index tlast 1 * win0_2.size 1 ≤ (i 1 : Nat) ∧ (i 1 : Nat) < win0_2.index tlast 1 * win0_2.size 1 + win0_2.xsize (grid0.coords tlast) 1
        rw [show win0_2.index tlast 1 * win0_2.size 1 = 0 from by decide +kernel, show win0_2.xsize (grid0.coords tlast) 1 = 1 from by decide +kernel]
        omega⟩

/-- The reshape after the region hands the one element on as the scalar result. -/
theorem tail_eq (c : Dev nD) :
    Pipeline.afterTail₀ cfgs (dats m) 0 (V0 m) [hostOps1] c main_v2
      = fun _ => total (X5 m c) (tin m c) * ((1 / 50331648 : ℝ) : EReal) := by
  unfold Pipeline.afterTail₀
  show StableHlo.after hostOps1 _ (Proc.devRef .tc main_v2) = _
  after_results
  rw [(Pipeline.withArrays_arr spec0 launch0.win.arr_inj c _ _ 2).trans (final m c)]
  funext y
  rfl

/-- The run, read: every weakly fair execution ends with the scalar result at the loss and the arguments unchanged. -/
theorem run : θ_run defs (onTc (τ := τ) (main (F := Ideal))) ⟨m, fun _ => 0, ρ⟩ fun r => ∀ c : Dev nD,
      r.2.mem ((c.tc : Thread nD τ).loc main_v2) = (fun _ => total (X5 m c) (tin m c) * ((1 / 50331648 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KValue

end
-- ==== Proof.RefValue.lean ====
/-
  What the reference computes, read at the ideal instance: the target is re-laid patch by patch (split rows and columns
  into board position and position inside the patch, bring the board position forward, flatten), subtracted from the
  input, squared, summed over everything from zero and divided by 50331648. Element (sample, patch, e) of the re-laid
  target, with e = 4096·channel + 64·row + column, is the pixel (channel, 64·(patch / 8) + row, 64·(patch % 8) + column)
  of the sample's image; and dividing an extended real by the real 50331648 is multiplying it by 1/50331648.
-/
import proofs.«404872_j16879221473428_3_alg».proof.Proof.Spec
import proofs.«404872_j16879221473428_3_alg».proof.Proof.Gen.ReferenceIdeal.Read
import Idealize.ShloMosaic.Lib.Pipeline.Value
import Idealize.ShloMosaic.Lib.ValueIdxRank6
import Idealize.ShloMosaic.PureOps.Ideal.Laws

noncomputable section

open scoped BigOperators

namespace Cert.ReferenceIdeal.RefValue

open Idealize.ShloMosaic Idealize.ShloMosaic.ValueIdx Cert.PatchLoss

/-- The divisor's bit pattern denotes the real 50331648 = 1.5 · 2²⁵. -/
theorem ofBits_divisor : Ideal.ofBits .f32 0x4C400000#32 = ((50331648 : ℝ) : EReal) := by
  simp [Ideal.ofBits, Ideal.ieee, -EReal.coe_mul]; norm_num

/-- Element `p` = (sample, patch, channel, row, column) as an index of the re-laid target before flattening:
    (sample, board row, board column, channel, row, column). -/
def kidx (p : SP.Idx) : Cert.ReferenceIdeal.S64x8x8x3x64x64.Idx :=
  ix6 (⟨(p 0).val, (p 0).isLt⟩ : Fin 64)
    (⟨(p 1).val / 8, by
      have h1 : (p 1).val < 64 := (p 1).isLt
      omega⟩ : Fin 8)
    (⟨(p 1).val % 8, by omega⟩ : Fin 8)
    (⟨(p 2).val, (p 2).isLt⟩ : Fin 3) (⟨(p 3).val, (p 3).isLt⟩ : Fin 64) (⟨(p 4).val, (p 4).isLt⟩ : Fin 64)

/-- Splitting the patch number into board row and board column keeps the row-major position:
    8 · (q / 8) + q % 8 = q. -/
theorem rowMajor_kidx (p : SP.Idx) :
    (Cert.ReferenceIdeal.S64x8x8x3x64x64.rowMajor (kidx p)).val = (SP.rowMajor p).val := by
  rw [Shape.rowMajor_val_six, Shape.rowMajor_val_five]
  show ((((((p 0).val * 8 + (p 1).val / 8) * 8 + (p 1).val % 8) * 3 + (p 2).val) * 64 + (p 3).val) * 64 + (p 4).val)
    = (((((p 0).val * 64 + (p 1).val) * 3 + (p 2).val) * 64 + (p 3).val) * 64 + (p 4).val)
  omega

/-- The pixel `tgt p` of the image and the index (sample, channel, board row, row, board column, column) of the image
    with its rows and columns split have the same row-major position:
    512 · (64 · (q / 8) + row) + 64 · (q % 8) + column = ((((q / 8) · 64 + row) · 8 + q % 8) · 64 + column. -/
theorem rowMajor_tgt (p : SP.Idx) :
    (ST.rowMajor (tgt p)).val
      = (Cert.ReferenceIdeal.S64x3x8x64x8x64.rowMajor (Cert.ReferenceIdeal.Read.idx_main_v1 (kidx p))).val := by
  rw [Shape.rowMajor_val_four, Shape.rowMajor_val_six]
  show ((((p 0).val * 3 + (p 2).val) * 512 + ((p 1).val / 8 * 64 + (p 3).val)) * 512 + ((p 1).val % 8 * 64 + (p 4).val))
    = ((((((p 0).val * 3 + (p 2).val) * 8 + (p 1).val / 8) * 64 + (p 3).val) * 8 + (p 1).val % 8) * 64 + (p 4).val)
  omega

/-- The re-laid target at the flat index matched with `p` is the pixel `tgt p`. -/
theorem v2_read (x1 : (⟨Cert.ReferenceIdeal.S64x3x512x512, .f32⟩ : BufTy).Contents (Elt Ideal)) (h : SX.ShapeCasts SP)
    (p : SP.Idx) :
    Cert.ReferenceIdeal.Read.val_main_v2 (F := Ideal) x1 (Shape.reshapeEquiv h p) = x1 (tgt p) := by
  unfold Cert.ReferenceIdeal.Read.val_main_v2
  rw [shapeCast_apply _ _ _ (kidx p) (by rw [rowMajor_kidx]; exact (Shape.rowMajor_reshapeEquiv h p).symm)]
  rw [Cert.ReferenceIdeal.Read.val_main_v1_apply]
  unfold Cert.ReferenceIdeal.Read.val_main_v0
  exact shapeCast_apply _ _ _ (tgt p) (rowMajor_tgt p)

/-- The squared difference the reference forms at the flat index matched with `p` is the one at `p`. -/
theorem v4_read (x0 : (⟨Cert.ReferenceIdeal.S64x64x12288, .f32⟩ : BufTy).Contents (Elt Ideal))
    (x1 : (⟨Cert.ReferenceIdeal.S64x3x512x512, .f32⟩ : BufTy).Contents (Elt Ideal)) (h : SX.ShapeCasts SP) (p : SP.Idx) :
    Cert.ReferenceIdeal.Read.val_main_v4 (F := Ideal) x0 x1 (Shape.reshapeEquiv h p) = sqd (shapeCast SP x0 h) x1 p := by
  rw [Cert.ReferenceIdeal.Read.val_main_v4_apply, Cert.ReferenceIdeal.Read.val_main_v3_apply, v2_read,
    Ideal.subf_def, Ideal.mulf_def]
  rfl

/-- The reference's sum from zero over the flat indices is the total over the split indices: the two index sets
    correspond one to one by row-major position. -/
theorem v5_read (x0 : (⟨Cert.ReferenceIdeal.S64x64x12288, .f32⟩ : BufTy).Contents (Elt Ideal))
    (x1 : (⟨Cert.ReferenceIdeal.S64x3x512x512, .f32⟩ : BufTy).Contents (Elt Ideal)) (h : SX.ShapeCasts SP)
    (i : Cert.ReferenceIdeal.S_.Idx) :
    Cert.ReferenceIdeal.Read.val_main_v5 (F := Ideal) x0 x1 i = total (shapeCast SP x0 h) x1 := by
  rw [Cert.ReferenceIdeal.Read.val_main_v5_apply, Cert.ReferenceIdeal.Read.val_main_cst_apply, Ideal.ofBits_def,
    Ideal.ofBits_zero_f32, zero_add]
  unfold total
  rw [← Equiv.sum_comp (Shape.reshapeEquiv h)]
  exact Finset.sum_congr rfl fun p _ => v4_read x0 x1 h p

/-- The reference's result is the total of the squared differences — the input read with each patch split into
    (channel, row, column) — times 1/50331648. -/
theorem ref_value (x0 : (⟨Cert.ReferenceIdeal.S64x64x12288, .f32⟩ : BufTy).Contents (Elt Ideal))
    (x1 : (⟨Cert.ReferenceIdeal.S64x3x512x512, .f32⟩ : BufTy).Contents (Elt Ideal)) (h : SX.ShapeCasts SP) :
    Cert.ReferenceIdeal.Read.val_main_v6 (F := Ideal) x0 x1
      = fun _ => total (shapeCast SP x0 h) x1 * ((1 / 50331648 : ℝ) : EReal) := by
  funext i
  rw [Cert.ReferenceIdeal.Read.val_main_v6_apply, v5_read x0 x1 h, Cert.ReferenceIdeal.Read.val_main_cst_0_apply,
    Ideal.ofBits_def, ofBits_divisor, Ideal.hostDivf_def, Ideal.div_coe (by norm_num)]

end Cert.ReferenceIdeal.RefValue

end
-- ==== Proof.lean ====
/- The kernel and the reference compute one number: the mean squared difference between the input, read patch by
   patch, and the target images cut into an 8 × 8 board of 64 × 64 patches.

   The reference re-lays the target patch by patch, subtracts, squares, sums all 50331648 = 64·64·12288 squares from
   zero and divides by 50331648. The kernel never re-lays anything: grid point `t` of its 8 × 8 grid reads eight
   samples' eight patches of one board row straight out of the input and the matching band of 64 pixel rows out of
   the target, adds the squares of that share to an accumulator it keeps from point to point (zeroed at the first
   point), and at the last point multiplies the accumulator by a constant, which the certificate's table names
   1/50331648.

   Over the extended reals addition is commutative and associative, so the 64 shares, which between them hold every
   element exactly once, add up to the reference's sum whatever the order (Proof/Regroup.lean); dividing an extended real
   by the nonzero real 50331648 is multiplying it by 1/50331648 (Proof/RefValue.lean). No finiteness is needed, and the
   precondition is never opened.

   Proof/Spec.lean states the sum and its shares; Proof/Payload.lean reads the body's arithmetic as a share;
   Proof/Pieces.lean reads what each control case of the body leaves in the accumulator and the output;
   Proof/KernelValue.lean carries the accumulator through the grid by induction on the point and reads the result
   array and the scalar result after the region; Proof/RefValue.lean reads the reference's term as the same value.
   The three frame claims are the generated frames (the reference's: its generated run with the result dropped);
   `preserves` is the one named constant's statement. -/
import proofs.«404872_j16879221473428_3_alg».proof.Defs
import proofs.«404872_j16879221473428_3_alg».proof.Proof.Gen.Kernel
import proofs.«404872_j16879221473428_3_alg».proof.Proof.Gen.Kernel.Skeleton
import proofs.«404872_j16879221473428_3_alg».proof.Proof.Gen.Kernel.Launch
import proofs.«404872_j16879221473428_3_alg».proof.Proof.Gen.Kernel.Points
import proofs.«404872_j16879221473428_3_alg».proof.Proof.Gen.Kernel.Frame
import proofs.«404872_j16879221473428_3_alg».proof.Proof.Gen.KernelIdeal
import proofs.«404872_j16879221473428_3_alg».proof.Proof.Gen.KernelIdeal.Skeleton
import proofs.«404872_j16879221473428_3_alg».proof.Proof.Gen.KernelIdeal.Launch
import proofs.«404872_j16879221473428_3_alg».proof.Proof.Gen.KernelIdeal.Points
import proofs.«404872_j16879221473428_3_alg».proof.Proof.Gen.KernelIdeal.Frame
import proofs.«404872_j16879221473428_3_alg».proof.Proof.Gen.ReferenceIdeal
import proofs.«404872_j16879221473428_3_alg».proof.Proof.Gen.Pre_finite_inputs
import proofs.«404872_j16879221473428_3_alg».proof.Proof.Gen.ReferenceIdeal.Run
import proofs.«404872_j16879221473428_3_alg».proof.Proof.Gen.ReferenceIdeal.Read
import proofs.«404872_j16879221473428_3_alg».proof.Proof.KernelValue
import proofs.«404872_j16879221473428_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the scaling constant's pattern is named, and the table gives the name
    the value 1/50331648. -/
theorem preserves : Cert.preserves_Kernel_KernelIdeal :=
  IdealRules.named_const.statement Cert.KernelIdeal.κ "inv_total" .f32 0x32AAAAAB#32 ((1 / 50331648 : ℝ) : EReal) rfl

/-- Both programs end at the total of the squared differences times 1/50331648, of arguments that agree. -/
theorem algebraic : Cert.algebraic_KernelIdeal_ReferenceIdeal := by
  intro m ρ m' ρ' _ hagree
  refine ⟨fun c _ => Cert.PatchLoss.total (Cert.KernelIdeal.KValue.X5 m c) (Cert.KernelIdeal.KValue.tin m c)
    * ((1 / 50331648 : ℝ) : EReal), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v6_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))).trans ?_
  rw [Cert.ReferenceIdeal.RefValue.ref_value _ _ Cert.KernelIdeal.Gen.shapeCasts_S64x64x12288_S64x64x3x64x64,
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
